-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144x256 : Shape := ⟨2, ![262144, 256]⟩
abbrev S1x256 : Shape := ⟨2, ![1, 256]⟩
abbrev S256x128 : Shape := ⟨2, ![256, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S262144x256 : S_.BroadcastsInDim S262144x256 (![] : Fin 0 → Fin S262144x256.rank)
  reducesTo_S262144x256_S_d0_1 : S262144x256.ReducesTo [0, 1] S_
  bcast_S_S1x256 : S_.BroadcastsInDim S1x256 (![] : Fin 0 → Fin S1x256.rank)
  reducesTo_S1x256_S_d0_1 : S1x256.ReducesTo [0, 1] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg7 : FVec F S1x256 .f32) (main_v33 : IVec S_ 1) : IVec S_ 1 :=
  let main_v34 : FVec F S1x256 .f32 := Host.absf main_arg7
  let main_cst_12 : FVec F S_ .f32 := constant S_ .f32 0x7F800000#32
  let main_v35 : FVec F S1x256 .f32 := broadcastInDim S1x256 ![] bcast_S_S1x256 main_cst_12
  let main_v36 : IVec S1x256 1 := cmpf .olt main_v34 main_v35
  let main_c_13 : IVec S_ 1 := constantI S_ 1 1#1
  let main_v37 : IVec S_ 1 := (fun x v => Host.reduce IntOp.andi x v reducesTo_S1x256_S_d0_1 h_S_) main_v36 main_c_13
  let main_v38 : IVec S_ 1 := andi main_v33 main_v37
  main_v38

def fn_part1 {F : FTy → Type} [FloatOps F] (main_arg4 : FVec F S1x256 .f32) (main_arg5 : FVec F S256x128 .f32) (main_arg6 : FVec F S256x128 .f32) (main_arg7 : FVec F S1x256 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S1x256 .f32 := Host.absf main_arg4
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_v33

def fn {F : FTy → Type} [FloatOps F] (main_arg0 : FVec F S262144x128 .f32) (main_arg1 : FVec F S262144x256 .f32) (main_arg2 : FVec F S262144x256 .f32) (main_arg3 : FVec F S1x256 .f32) (main_arg4 : FVec F S1x256 .f32) (main_arg5 : FVec F S256x128 .f32) (main_arg6 : FVec F S256x128 .f32) (main_arg7 : FVec F S1x256 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x256 .f32 := Host.absf main_arg1
  let main_cst_0 : FVec F S_ .f32 := constant S_ .f32 0x7F800000#32
  let main_v5 : FVec F S262144x256 .f32 := broadcastInDim S262144x256 ![] bcast_S_S262144x256 main_cst_0
  let main_v6 : IVec S262144x256 1 := cmpf .olt main_v4 main_v5
  let main_c_1 : IVec S_ 1 := constantI S_ 1 1#1
  let main_v7 : IVec S_ 1 := (fun x v => Host.reduce IntOp.andi x v reducesTo_S262144x256_S_d0_1 h_S_) main_v6 main_c_1
  let main_v8 : IVec S_ 1 := andi main_v3 main_v7
  let main_v9 : FVec F S262144x256 .f32 := Host.absf main_arg2
  let main_cst_2 : FVec F S_ .f32 := constant S_ .f32 0x7F800000#32
  let main_v10 : FVec F S262144x256 .f32 := broadcastInDim S262144x256 ![] bcast_S_S262144x256 main_cst_2
  let main_v11 : IVec S262144x256 1 := cmpf .olt main_v9 main_v10
  let main_c_3 : IVec S_ 1 := constantI S_ 1 1#1
  let main_v12 : IVec S_ 1 := (fun x v => Host.reduce IntOp.andi x v reducesTo_S262144x256_S_d0_1 h_S_) main_v11 main_c_3
  let main_v13 : IVec S_ 1 := andi main_v8 main_v12
  let main_v14 : FVec F S1x256 .f32 := Host.absf main_arg3
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg4 main_arg5 main_arg6 main_arg7 main_v13 main_v16
-- ==== Kernel.lean ====
abbrev S262144x128 : Shape := ⟨2, ![262144, 128]⟩
abbrev S262144x256 : Shape := ⟨2, ![262144, 256]⟩
abbrev S1x256 : Shape := ⟨2, ![1, 256]⟩
abbrev S256x128 : Shape := ⟨2, ![256, 128]⟩
abbrev S128x256 : Shape := ⟨2, ![128, 256]⟩
abbrev S2x262144x256 : Shape := ⟨3, ![2, 262144, 256]⟩
abbrev S2048x128 : Shape := ⟨2, ![2048, 128]⟩
abbrev S2048x256 : Shape := ⟨2, ![2048, 256]⟩
abbrev S2x2048x256 : Shape := ⟨3, ![2, 2048, 256]⟩
abbrev S1x2048x256 : Shape := ⟨3, ![1, 2048, 256]⟩

abbrev nBuf : Space → Nat
  | .hbm => 24
  | .vmem => 12
  | .smem => 0
  | _ => 0

abbrev bufTy : (tb : Table) → Fin (tcTables nBuf tb) → BufTy
  | .hbm, ⟨0, _⟩ => ⟨S262144x128, .f32⟩
  | .hbm, ⟨1, _⟩ => ⟨S262144x256, .f32⟩
  | .hbm, ⟨2, _⟩ => ⟨S262144x256, .f32⟩
  | .hbm, ⟨3, _⟩ => ⟨S1x256, .f32⟩
  | .hbm, ⟨4, _⟩ => ⟨S1x256, .f32⟩
  | .hbm, ⟨5, _⟩ => ⟨S256x128, .f32⟩
  | .hbm, ⟨6, _⟩ => ⟨S256x128, .f32⟩
  | .hbm, ⟨7, _⟩ => ⟨S1x256, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S128x256, .f32⟩
  | .hbm, ⟨18, _⟩ => ⟨S128x256, .f32⟩
  | .hbm, ⟨19, _⟩ => ⟨S128x256, .f32⟩
  | .hbm, ⟨20, _⟩ => ⟨S128x256, .f32⟩
  | .hbm, ⟨21, _⟩ => ⟨S128x256, .f32⟩
  | .hbm, ⟨22, _⟩ => ⟨S128x256, .f32⟩
  | .hbm, ⟨23, _⟩ => ⟨S2x262144x256, .f32⟩
  | .local _ .vmem, ⟨0, _⟩ => ⟨S2048x128, .f32⟩
  | .local _ .vmem, ⟨1, _⟩ => ⟨S2048x128, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S1x256, .f32⟩
  | .local _ .vmem, ⟨7, _⟩ => ⟨S1x256, .f32⟩
  | .local _ .vmem, ⟨8, _⟩ => ⟨S128x256, .f32⟩
  | .local _ .vmem, ⟨9, _⟩ => ⟨S128x256, .f32⟩
  | .local _ .vmem, ⟨10, _⟩ => ⟨S2x2048x256, .f32⟩
  | .local _ .vmem, ⟨11, _⟩ => ⟨S2x2048x256, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S256x128_S128x256_1_0 : S256x128.Transposes [1, 0] S128x256
  bcast_S1x256_S128x256_0_1 : S1x256.BroadcastsInDim S128x256 (![0, 1] : Fin 2 → Fin S128x256.rank)
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2048x256_S2048x256_0_0 : ∀ a, (![0, 0] : Fin 2 → Nat) a + S2048x256.size a ≤ S2048x256.size a
  h_S2048x256 : 0 < S2048x256.numel
  broadcasts_S1x256_S2048x256 : S1x256.Broadcasts S2048x256
  inb_S2x2048x256_S1x2048x256_0_0_0 : ∀ a, (![0, 0, 0] : Fin 3 → Nat) a + S1x2048x256.size a ≤ S2x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  inb_S2x2048x256_S1x2048x256_1_0_0 : ∀ a, (![1, 0, 0] : Fin 3 → Nat) a + S1x2048x256.size a ≤ S2x2048x256.size a
  dot_S2048x128_S128x256_S2048x256_1_0_0_1_n_n_wf : DotDims.WF S2048x128 S128x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S262144x256.size a
  hwx0_1 : ∀ i : grid0.Coords, EltTy.bits .f32 = 32 ∨ (Rect.block (s := S262144x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S262144x256.size a
  hwx0_2 : ∀ i : grid0.Coords, EltTy.bits .f32 = 32 ∨ (Rect.block (s := S262144x256) S2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .f32 = 32 ∨ (Rect.block (s := S128x256) S128x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x2048x256.size a ≤ S2x262144x256.size a
  hwx0_7 : ∀ i : grid0.Coords, EltTy.bits .f32 = 32 ∨ (Rect.block (s := S2x262144x256) S2x2048x256.size (cc0_transform_7 i) (hinb0_7 i)).WholeWords (EltTy.packing .f32)

variable [Facts₀]

def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S2x2048x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S262144x128 : Shape := ⟨2, ![262144, 128]⟩
abbrev S262144x256 : Shape := ⟨2, ![262144, 256]⟩
abbrev S1x256 : Shape := ⟨2, ![1, 256]⟩
abbrev S256x128 : Shape := ⟨2, ![256, 128]⟩
abbrev S256x1 : Shape := ⟨2, ![256, 1]⟩
abbrev S128x256 : Shape := ⟨2, ![128, 256]⟩
abbrev S1x262144x256 : Shape := ⟨3, ![1, 262144, 256]⟩
abbrev S2x262144x256 : Shape := ⟨3, ![2, 262144, 256]⟩

abbrev nBuf : Space → Nat
  | .hbm => 41
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x256, .f32⟩
  | .hbm, ⟨2, _⟩ => ⟨S262144x256, .f32⟩
  | .hbm, ⟨3, _⟩ => ⟨S1x256, .f32⟩
  | .hbm, ⟨4, _⟩ => ⟨S1x256, .f32⟩
  | .hbm, ⟨5, _⟩ => ⟨S256x128, .f32⟩
  | .hbm, ⟨6, _⟩ => ⟨S256x128, .f32⟩
  | .hbm, ⟨7, _⟩ => ⟨S1x256, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S256x1, .f32⟩
  | .hbm, ⟨18, _⟩ => ⟨S256x128, .f32⟩
  | .hbm, ⟨19, _⟩ => ⟨S256x128, .f32⟩
  | .hbm, ⟨20, _⟩ => ⟨S128x256, .f32⟩
  | .hbm, ⟨21, _⟩ => ⟨S262144x256, .f32⟩
  | .hbm, ⟨22, _⟩ => ⟨S256x128, .f32⟩
  | .hbm, ⟨23, _⟩ => ⟨S256x128, .f32⟩
  | .hbm, ⟨24, _⟩ => ⟨S128x256, .f32⟩
  | .hbm, ⟨25, _⟩ => ⟨S262144x256, .f32⟩
  | .hbm, ⟨26, _⟩ => ⟨S262144x256, .f32⟩
  | .hbm, ⟨27, _⟩ => ⟨S262144x256, .f32⟩
  | .hbm, ⟨28, _⟩ => ⟨S262144x256, .f32⟩
  | .hbm, ⟨29, _⟩ => ⟨S262144x256, .f32⟩
  | .hbm, ⟨30, _⟩ => ⟨S262144x256, .f32⟩
  | .hbm, ⟨31, _⟩ => ⟨S262144x256, .f32⟩
  | .hbm, ⟨32, _⟩ => ⟨S262144x256, .f32⟩
  | .hbm, ⟨33, _⟩ => ⟨S262144x256, .f32⟩
  | .hbm, ⟨34, _⟩ => ⟨S262144x256, .f32⟩
  | .hbm, ⟨35, _⟩ => ⟨S262144x256, .f32⟩
  | .hbm, ⟨36, _⟩ => ⟨S262144x256, .f32⟩
  | .hbm, ⟨37, _⟩ => ⟨S262144x256, .f32⟩
  | .hbm, ⟨38, _⟩ => ⟨S1x262144x256, .f32⟩
  | .hbm, ⟨39, _⟩ => ⟨S1x262144x256, .f32⟩
  | .hbm, ⟨40, _⟩ => ⟨S2x262144x256, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]

class Facts₀ : Prop where
  transposes_S1x256_S256x1_1_0 : S1x256.Transposes [1, 0] S256x1
  bcast_S256x1_S256x128_0_1 : S256x1.BroadcastsInDim S256x128 (![0, 1] : Fin 2 → Fin S256x128.rank)
  transposes_S256x128_S128x256_1_0 : S256x128.Transposes [1, 0] S128x256
  bcast_S1x256_S262144x256_0_1 : S1x256.BroadcastsInDim S262144x256 (![0, 1] : Fin 2 → Fin S262144x256.rank)
  bcast_S262144x256_S1x262144x256_1_2 : S262144x256.BroadcastsInDim S1x262144x256 (![1, 2] : Fin 2 → Fin S1x262144x256.rank)
  concatenates_S1x262144x256_S1x262144x256_S2x262144x256_d0 : Shape.Concatenates [S1x262144x256, S1x262144x256] S2x262144x256 0
  dot_S262144x128_S128x256_S262144x256_1_0_0_1_n_n_wf : DotDims.WF S262144x128 S128x256 S262144x256 [1] [0] [0] [1] [] []

variable [Facts₀]

def dot_S262144x128_S128x256_S262144x256_1_0_0_1_n_n : DotDims S262144x128 S128x256 S262144x256 where
  lhsContracting := [1]
  rhsContracting := [0]
  lhsNonContracting := [0]
  rhsNonContracting := [1]
  lhsBatch := []
  rhsBatch := []
  wf := dot_S262144x128_S128x256_S262144x256_1_0_0_1_n_n_wf

class Facts : Prop extends Facts₀ where

variable [Facts]
-- ==== Proof.StepSpec.lean ====
/-
  One step of a diagonal complex linear recurrence, written in real and imaginary parts.

  For a batch row `b` and a hidden unit `h` the new state is `λ_h · s_{b,h} + (x_b · W)_h` with
  `λ_h = exp(−exp ν_h) · (cos φ_h + i sin φ_h)`, `φ_h = exp θ_h`, and the drive matrix
  `W_{k,h} = B_{h,k} · exp γ_h` (one matrix for the real part, one for the imaginary part). In real and
  imaginary parts:

      re'_{b,h} = (Re λ_h · re_{b,h} − Im λ_h · im_{b,h}) + Σ_k x_{b,k} · Wre_{k,h}
      im'_{b,h} = (Re λ_h · im_{b,h} + Im λ_h · re_{b,h}) + Σ_k x_{b,k} · Wim_{k,h}

  and the result stacks the two planes on a leading axis of extent two. Everything is over the extended
  reals, with sums and products in exactly this association; the only law used anywhere is that the
  product of two extended reals commutes (the row scale may stand on either side of a matrix entry).

  `combine` is the step once `Re λ`, `Im λ` and the two drive matrices are given as arrays, for any number
  `n` of batch rows (a block of rows and the whole batch are both instances); `next` is the step as a
  function of the raw parameters `ν, θ, B, γ`.
-/
import Idealize.ShloMosaic.PureOps.Ideal
import Idealize.ShloMosaic.Lib.ValueIdx

noncomputable section

namespace Cert.LruStep

open Idealize.ShloMosaic Idealize.ShloMosaic.ValueIdx

/-- The step with the eigenvalue's two parts (`lr`, `li`: one row of 256) and the two drive matrices
    (`wr`, `wi`: 128 × 256) given, over `n` batch rows: plane 0 is the real part, plane 1 the imaginary part. -/
def combine {n : Nat} (x : (⟨2, ![n, 128]⟩ : Shape).Idx → EReal) (sRe sIm : (⟨2, ![n, 256]⟩ : Shape).Idx → EReal)
    (lr li : (⟨2, ![1, 256]⟩ : Shape).Idx → EReal) (wr wi : (⟨2, ![128, 256]⟩ : Shape).Idx → EReal)
    (p : Fin 2) (b : Fin n) (h : Fin 256) : EReal :=
  if p.val = 0 then
    (lr (ix2 0 h) * sRe (ix2 b h) - li (ix2 0 h) * sIm (ix2 b h)) + ∑ k : Fin 128, x (ix2 b k) * wr (ix2 k h)
  else
    (lr (ix2 0 h) * sIm (ix2 b h) + li (ix2 0 h) * sRe (ix2 b h)) + ∑ k : Fin 128, x (ix2 b k) * wi (ix2 k h)

section Parameters

variable (nu th ga : (⟨2, ![1, 256]⟩ : Shape).Idx → EReal)

/-- `|λ_h| = exp(−exp ν_h)`. -/
def decay (h : Fin 256) : EReal := Ideal.exp (-(Ideal.exp (nu (ix2 0 h))))
/-- `arg λ_h = exp θ_h`. -/
def phase (h : Fin 256) : EReal := Ideal.exp (th (ix2 0 h))
/-- `Re λ_h`, as a row. -/
def lamRe : (⟨2, ![1, 256]⟩ : Shape).Idx → EReal := fun i => decay nu (i 1) * Ideal.cos (phase th (i 1))
/-- `Im λ_h`, as a row. -/
def lamIm : (⟨2, ![1, 256]⟩ : Shape).Idx → EReal := fun i => decay nu (i 1) * Ideal.sin (phase th (i 1))
/-- The drive matrix `W_{k,h} = B_{h,k} · exp γ_h` of a parameter matrix `B` (256 × 128). -/
def drive (B : (⟨2, ![256, 128]⟩ : Shape).Idx → EReal) : (⟨2, ![128, 256]⟩ : Shape).Idx → EReal :=
  fun i => B (ix2 (i 1) (i 0)) * Ideal.exp (ga (ix2 0 (i 1)))
/-- The same matrix with the row scale written on the left of the entry. -/
def driveL (B : (⟨2, ![256, 128]⟩ : Shape).Idx → EReal) : (⟨2, ![128, 256]⟩ : Shape).Idx → EReal :=
  fun i => Ideal.exp (ga (ix2 0 (i 1))) * B (ix2 (i 1) (i 0))

/-- The scale commutes with the entry. -/
theorem driveL_eq (B : (⟨2, ![256, 128]⟩ : Shape).Idx → EReal) : driveL ga B = drive ga B :=
  funext fun _ => mul_comm _ _

end Parameters

/-- THE STEP as a function of the raw parameters, at plane `p`, batch row `b`, hidden unit `h`. -/
def next (x : (⟨2, ![262144, 128]⟩ : Shape).Idx → EReal) (sRe sIm : (⟨2, ![262144, 256]⟩ : Shape).Idx → EReal)
    (nu th : (⟨2, ![1, 256]⟩ : Shape).Idx → EReal) (bRe bIm : (⟨2, ![256, 128]⟩ : Shape).Idx → EReal)
    (ga : (⟨2, ![1, 256]⟩ : Shape).Idx → EReal) : (⟨3, ![2, 262144, 256]⟩ : Shape).Idx → EReal :=
  fun j => combine x sRe sIm (lamRe nu th) (lamIm nu th) (drive ga bRe) (drive ga bIm) (j 0) (j 1) (j 2)

end Cert.LruStep

end
-- ==== Proof.StepRows.lean ====
/-
  Two facts about the step that involve no program.

  The step at `(p, b, h)` depends on its three coordinates only through their values (`combine_congr`), and
  the step of a block of 2048 consecutive batch rows is that block of the step of the whole batch
  (`combine_rows`): row `r` of block `t` is batch row `t · 2048 + r`, the input row and the two state rows
  are that row's, and the eigenvalue and the drive matrices do not depend on the row.
-/
import proofs.«101605_j15032385536244_1_alg».proof.Proof.StepSpec

noncomputable section

namespace Cert.LruStep

open Idealize.ShloMosaic Idealize.ShloMosaic.ValueIdx

/-- The step depends on its coordinates through their values only. -/
theorem combine_congr {n : Nat} (x : (⟨2, ![n, 128]⟩ : Shape).Idx → EReal) (sRe sIm : (⟨2, ![n, 256]⟩ : Shape).Idx → EReal)
    (lr li : (⟨2, ![1, 256]⟩ : Shape).Idx → EReal) (wr wi : (⟨2, ![128, 256]⟩ : Shape).Idx → EReal)
    {p p' : Fin 2} {b b' : Fin n} {h h' : Fin 256} (hp : p.val = p'.val) (hb : b.val = b'.val) (hh : h.val = h'.val) :
    combine x sRe sIm lr li wr wi p b h = combine x sRe sIm lr li wr wi p' b' h' := by
  obtain rfl := Fin.ext hp; obtain rfl := Fin.ext hb; obtain rfl := Fin.ext hh; rfl

/-- Plane 0 does not read the imaginary part's drive matrix. -/
theorem combine_zero {n : Nat} (x : (⟨2, ![n, 128]⟩ : Shape).Idx → EReal) (sRe sIm : (⟨2, ![n, 256]⟩ : Shape).Idx → EReal)
    (lr li : (⟨2, ![1, 256]⟩ : Shape).Idx → EReal) (wr wi : (⟨2, ![128, 256]⟩ : Shape).Idx → EReal) (b : Fin n) (h : Fin 256) :
    combine x sRe sIm lr li wr wi 0 b h
      = (lr (ix2 0 h) * sRe (ix2 b h) - li (ix2 0 h) * sIm (ix2 b h)) + ∑ k : Fin 128, x (ix2 b k) * wr (ix2 k h) := by
  unfold combine; exact if_pos rfl

/-- Plane 1 does not read the real part's. -/
theorem combine_one {n : Nat} (x : (⟨2, ![n, 128]⟩ : Shape).Idx → EReal) (sRe sIm : (⟨2, ![n, 256]⟩ : Shape).Idx → EReal)
    (lr li : (⟨2, ![1, 256]⟩ : Shape).Idx → EReal) (wr wi : (⟨2, ![128, 256]⟩ : Shape).Idx → EReal) (b : Fin n) (h : Fin 256) :
    combine x sRe sIm lr li wr wi 1 b h
      = (lr (ix2 0 h) * sIm (ix2 b h) + li (ix2 0 h) * sRe (ix2 b h)) + ∑ k : Fin 128, x (ix2 b k) * wi (ix2 k h) := by
  unfold combine; exact if_neg (by decide)

/-- THE STEP OF A BLOCK OF ROWS is the block of the step: if `x`, `sRe`, `sIm` are rows
    `t · 2048 … t · 2048 + 2047` of `X`, `SRe`, `SIm`, the step of the block at row `r` is the step of the whole
    batch at row `t · 2048 + r`. -/
theorem combine_rows (X : (⟨2, ![262144, 128]⟩ : Shape).Idx → EReal) (SRe SIm : (⟨2, ![262144, 256]⟩ : Shape).Idx → EReal)
    (x : (⟨2, ![2048, 128]⟩ : Shape).Idx → EReal) (sRe sIm : (⟨2, ![2048, 256]⟩ : Shape).Idx → EReal)
    (lr li : (⟨2, ![1, 256]⟩ : Shape).Idx → EReal) (wr wi : (⟨2, ![128, 256]⟩ : Shape).Idx → EReal)
    (row : Fin 2048 → Fin 262144)
    (hx : ∀ r k, x (ix2 r k) = X (ix2 (row r) k)) (hre : ∀ r h, sRe (ix2 r h) = SRe (ix2 (row r) h))
    (him : ∀ r h, sIm (ix2 r h) = SIm (ix2 (row r) h)) (p : Fin 2) (r : Fin 2048) (h : Fin 256) :
    combine x sRe sIm lr li wr wi p r h = combine X SRe SIm lr li wr wi p (row r) h := by
  unfold combine
  simp only [hx, hre, him]

end Cert.LruStep

end
-- ==== Proof.BlockStep.lean ====
/-
  What the kernel body leaves in its output block is the step of the block's rows.

  The body reads a block of 2048 input rows, the same rows of the two state planes, the eigenvalue's two parts
  (one row each) and the two drive matrices (128 × 256 each); it multiplies the input block with each drive
  matrix into a zero accumulator, forms `λre · re − λim · im + projection` and `λre · im + λim · re + projection`
  and stores the first into plane 0 and the second into plane 1 of a 2 × 2048 × 256 block. The changes of float
  format on the way to the matrix unit are the identity on extended reals. Index by index the block is
  `LruStep.combine` of what was read.
-/
import proofs.«101605_j15032385536244_1_alg».proof.Proof.Gen.KernelIdeal.Frame
import proofs.«101605_j15032385536244_1_alg».proof.Proof.StepRows
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Cert.LruStep Idealize.ShloMosaic Idealize.ShloMosaic.ValueIdx

/-! ## The contraction: row `r` of the left operand against column `h` of the right -/

theorem lhs_0 (i : S2048x256.Idx) (q : dot_S2048x128_S128x256_S2048x256_1_0_0_1_n_n.contr.Idx) :
    (dot_S2048x128_S128x256_S2048x256_1_0_0_1_n_n.lhsIdx i q 0).val = (i 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl
theorem lhs_1 (i : S2048x256.Idx) (q : dot_S2048x128_S128x256_S2048x256_1_0_0_1_n_n.contr.Idx) :
    (dot_S2048x128_S128x256_S2048x256_1_0_0_1_n_n.lhsIdx i q 1).val = (q ⟨0, by decide⟩).val :=
  dot_S2048x128_S128x256_S2048x256_1_0_0_1_n_n.lhsIdx_val_of_single rfl i q
theorem rhs_0 (i : S2048x256.Idx) (q : dot_S2048x128_S128x256_S2048x256_1_0_0_1_n_n.contr.Idx) :
    (dot_S2048x128_S128x256_S2048x256_1_0_0_1_n_n.rhsIdx i q 0).val = (q ⟨0, by decide⟩).val :=
  dot_S2048x128_S128x256_S2048x256_1_0_0_1_n_n.rhsIdx_val_of_single rfl i q
theorem rhs_1 (i : S2048x256.Idx) (q : dot_S2048x128_S128x256_S2048x256_1_0_0_1_n_n.contr.Idx) :
    (dot_S2048x128_S128x256_S2048x256_1_0_0_1_n_n.rhsIdx i q 1).val = (i 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl

/-- The matrix product into a zero accumulator, at `(r, h)`: the sum over the 128 features. -/
theorem product_at (a : FVec Ideal S2048x128 .bf16) (w : FVec Ideal S128x256 .bf16) (r : Fin 2048) (h : Fin 256) :
    matmul dot_S2048x128_S128x256_S2048x256_1_0_0_1_n_n none a w (constant (F := Ideal) S2048x256 .f32 0x00000000#32) (ix2 r h)
      = ∑ k : Fin 128, a (ix2 r k) * w (ix2 k h) := by
  simp only [matmul]
  rw [Ideal.matmul_constant_zero_apply, ← Equiv.sum_comp (contrEquiv1 dot_S2048x128_S128x256_S2048x256_1_0_0_1_n_n 128 rfl rfl).symm]
  refine Finset.sum_congr rfl fun k _ => ?_
  have hk := contrEquiv1_symm_val dot_S2048x128_S128x256_S2048x256_1_0_0_1_n_n 128 rfl rfl k
  have el : dot_S2048x128_S128x256_S2048x256_1_0_0_1_n_n.lhsIdx (ix2 r h) ((contrEquiv1 dot_S2048x128_S128x256_S2048x256_1_0_0_1_n_n 128 rfl rfl).symm k) = ix2 r k := funext fun a => Fin.ext (by
    match a with
    | ⟨0, _⟩ => exact lhs_0 _ _
    | ⟨1, _⟩ => exact (lhs_1 _ _).trans hk)
  have er : dot_S2048x128_S128x256_S2048x256_1_0_0_1_n_n.rhsIdx (ix2 r h) ((contrEquiv1 dot_S2048x128_S128x256_S2048x256_1_0_0_1_n_n 128 rfl rfl).symm k) = ix2 k h := funext fun a => Fin.ext (by
    match a with
    | ⟨0, _⟩ => exact (rhs_0 _ _).trans hk
    | ⟨1, _⟩ => exact rhs_1 _ _)
  rw [el, er]

/-- A row of 256 broadcast over the 2048 rows, at `(r, h)`: the row's entry `h`. -/
theorem row_at (v : FVec Ideal S1x256 .f32) (r : Fin 2048) (h : Fin 256) :
    broadcastTo S2048x256 v broadcasts_S1x256_S2048x256 (ix2 r h) = v (ix2 0 h) :=
  broadcastTo_apply v broadcasts_S1x256_S2048x256 (ix2 r h) (ix2 0 h) (fun a => by
    match a with
    | ⟨0, _⟩ => show 0 = if (1 : Nat) = 1 then 0 else r.val; rw [if_pos rfl]
    | ⟨1, _⟩ => show h.val = if (256 : Nat) = 1 then 0 else h.val; rw [if_neg (by decide)])

/-! ## The two stored values -/

/-- Dropping the unit axis of `(0, r, h)` leaves `(r, h)`. -/
theorem tail_eq (r : Fin 2048) (h : Fin 256) :
    (fun a : Fin 2 => (ix3 (0 : Fin 1) r h) a.succ) = ix2 r h :=
  funext fun a => by match a with | ⟨0, _⟩ => rfl | ⟨1, _⟩ => rfl

/-- The value stored into plane 0, at row `r` and hidden unit `h` of the block. -/
theorem re_at (v0 : Vec Ideal S2048x128 .f32) (v2 : Vec Ideal S128x256 .f32) (v10 v12 : Vec Ideal S1x256 .f32)
    (v14 v15 : Vec Ideal S2048x256 .f32) (wi : Vec Ideal S128x256 .f32) (r : Fin 2048) (h : Fin 256) :
    k0_pay4 v0 v2 v10 v12 v14 v15 (ix3 0 r h) = combine v0 v14 v15 v10 v12 v2 wi 0 r h := by
  refine Eq.trans ?_ (combine_zero v0 v14 v15 v10 v12 v2 wi r h).symm
  unfold k0_pay4 k0_pay1 k0_pay2 k0_pay3
  dsimp only
  refine (shapeCast_addUnit_apply ![2048, 256] _ shapeCasts_S2048x256_S1x2048x256 (ix3 0 r h)).trans ?_
  rw [tail_eq r h]
  simp only [shapeCast_self]
  show (_ * _ - _ * _) + _ = _
  rw [product_at, row_at, row_at]
  rfl

/-- The value stored into plane 1, at row `r` and hidden unit `h` of the block. -/
theorem im_at (v0 : Vec Ideal S2048x128 .f32) (v5 : Vec Ideal S128x256 .f32) (v10 v12 : Vec Ideal S1x256 .f32)
    (v14 v15 : Vec Ideal S2048x256 .f32) (wr : Vec Ideal S128x256 .f32) (r : Fin 2048) (h : Fin 256) :
    k0_pay5 v0 v5 v10 v12 v14 v15 (ix3 0 r h) = combine v0 v14 v15 v10 v12 wr v5 1 r h := by
  refine Eq.trans ?_ (combine_one v0 v14 v15 v10 v12 wr v5 r h).symm
  unfold k0_pay5 k0_pay1 k0_pay2 k0_pay3
  dsimp only
  refine (shapeCast_addUnit_apply ![2048, 256] _ shapeCasts_S2048x256_S1x2048x256 (ix3 0 r h)).trans ?_
  rw [tail_eq r h]
  simp only [shapeCast_self]
  show (_ * _ + _ * _) + _ = _
  rw [product_at, row_at, row_at]
  rfl

/-! ## The block: two stores, one function -/

theorem zeros2 : (![0, 0] : Fin 2 → Nat) = fun _ => 0 := funext fun a => by fin_cases a <;> rfl

/-- THE OUTPUT BLOCK after the body, at plane `p`, row `r`, hidden unit `h`: the step of what the body read.
    The second store (plane 1) and the first (plane 0) tile the block, and each stores its plane of the step. -/
theorem out_at (x0 : Vec Ideal S2048x128 .f32) (x1 x2 : Vec Ideal S2048x256 .f32) (x3 x4 : Vec Ideal S1x256 .f32)
    (x5 x6 : Vec Ideal S128x256 .f32) (p : Fin 2) (r : Fin 2048) (h : Fin 256) :
    out0_7 x0 x1 x2 x3 x4 x5 x6 (ix3 p r h) = combine x0 x1 x2 x3 x4 x5 x6 p r h := by
  unfold out0_7
  simp only [View.ld_unit_zero (S := S2048x128) zeros2, View.ld_unit_zero (S := S128x256) zeros2,
    View.ld_unit_zero (S := S1x256) zeros2, View.ld_unit_zero (S := S2048x256) zeros2]
  refine (View.canon_apply_of_pieces (Val := Elt Ideal) (S := S2x2048x256) (e := .f32)
    (fun y : S2x2048x256.Idx => (combine x0 x1 x2 x3 x4 x5 x6 (y 0) (y 1) (y 2) : EReal)) _ ?_ (ix3 p r h)
    (cover0_7 _ _ (ix3 p r h))).trans rfl
  intro q hq z
  simp only [List.mem_cons, List.mem_singleton, List.not_mem_nil, or_false] at hq
  rcases hq with rfl | rfl
  · obtain ⟨a, s, g, rfl⟩ : ∃ (a : Fin 1) (s : Fin 2048) (g : Fin 256), z = ix3 a s g := ⟨z 0, z 1, z 2, eq_ix3 z⟩
    obtain rfl : a = 0 := Subsingleton.elim _ _
    exact (im_at x0 x6 x3 x4 x1 x2 x5 s g).trans (combine_congr _ _ _ _ _ _ _ rfl (by show s.val = 0 + 1 * s.val; omega)
      (by show g.val = 0 + 1 * g.val; omega))
  · obtain ⟨a, s, g, rfl⟩ : ∃ (a : Fin 1) (s : Fin 2048) (g : Fin 256), z = ix3 a s g := ⟨z 0, z 1, z 2, eq_ix3 z⟩
    obtain rfl : a = 0 := Subsingleton.elim _ _
    exact (re_at x0 x5 x3 x4 x1 x2 x6 s g).trans (combine_congr _ _ _ _ _ _ _ rfl (by show s.val = 0 + 1 * s.val; omega)
      (by show g.val = 0 + 1 * g.val; omega))

end Cert.KernelIdeal.Block

end
-- ==== Proof.ArrayStep.lean ====
/-
  The kernel program's result array is the step of the whole batch.

  Before the region the program prepares, on the host, the eigenvalue's two parts (rows of 256) and the two
  drive matrices (the parameter matrices transposed, column `h` scaled by `exp γ_h` on the RIGHT of the entry);
  the region then walks the batch in 128 blocks of 2048 rows: at block `t` it reads rows
  `t · 2048 … t · 2048 + 2047` of the input and of the two state planes, the whole of the four prepared arrays,
  and writes rows `t · 2048 …` of both planes of the result. The blocks tile the result, each block is the step
  of its rows (Proof/BlockStep.lean), and the step of a block of rows is the block of the step
  (`LruStep.combine_rows`): so the array ends holding `LruStep.next` of the arguments.
-/
import proofs.«101605_j15032385536244_1_alg».proof.Proof.Gen.KernelIdeal.Value
import proofs.«101605_j15032385536244_1_alg».proof.Proof.BlockStep
import Idealize.ShloMosaic.Lib.StableHlo.Run

noncomputable section

namespace Cert.KernelIdeal.Stepped

open Cert.KernelIdeal Cert.KernelIdeal.Gen Cert.LruStep Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays the region finds, and the blocks it reads, by name -/

abbrev aX (c : Dev nD) : Vec Ideal S262144x128 .f32 := V m c main_arg0
abbrev aRe (c : Dev nD) : Vec Ideal S262144x256 .f32 := V m c main_arg1
abbrev aIm (c : Dev nD) : Vec Ideal S262144x256 .f32 := V m c main_arg2
abbrev aLr (c : Dev nD) : Vec Ideal S1x256 .f32 := V m c main_v5
abbrev aLi (c : Dev nD) : Vec Ideal S1x256 .f32 := V m c main_v7
abbrev aWr (c : Dev nD) : Vec Ideal S128x256 .f32 := V m c main_v11
abbrev aWi (c : Dev nD) : Vec Ideal S128x256 .f32 := V m c main_v14

abbrev bX (c : Dev nD) (t : Fin cfg0.N) : Vec Ideal S2048x128 .f32 := iblk m c 0 t
abbrev bRe (c : Dev nD) (t : Fin cfg0.N) : Vec Ideal S2048x256 .f32 := iblk m c 1 t
abbrev bIm (c : Dev nD) (t : Fin cfg0.N) : Vec Ideal S2048x256 .f32 := iblk m c 2 t
abbrev bLr (c : Dev nD) (t : Fin cfg0.N) : Vec Ideal S1x256 .f32 := iblk m c 3 t
abbrev bLi (c : Dev nD) (t : Fin cfg0.N) : Vec Ideal S1x256 .f32 := iblk m c 4 t
abbrev bWr (c : Dev nD) (t : Fin cfg0.N) : Vec Ideal S128x256 .f32 := iblk m c 5 t
abbrev bWi (c : Dev nD) (t : Fin cfg0.N) : Vec Ideal S128x256 .f32 := iblk m c 6 t

/-- The step of the whole batch from the arrays as the region finds them. -/
def stepped (c : Dev nD) : Vec Ideal S2x262144x256 .f32 := fun j =>
  combine (aX m c) (aRe m c) (aIm m c) (aLr m c) (aLi m c) (aWr m c) (aWi m c) (j 0) (j 1) (j 2)

/-! ## Where each window's block sits -/

/-- The index maps over the 128 grid points: the three batch-row windows and the result move one block of rows
    per point, the four prepared arrays stay whole. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = 0 ∧ win0_7.index t (1 : Fin 3) = t.val ∧ win0_7.index t (2 : Fin 3) = 0 :=
  (by decide +kernel : ∀ t : Fin grid0.N, _)

/-- Every block of rows is some point's. -/
theorem idx_onto : ∀ q : Fin 128, ∃ t : Fin cfg0.N, t.val = q.val :=
  fun q => ⟨⟨q.val, by rw [show cfg0.N = 128 from N_0]; exact q.isLt⟩, rfl⟩

/-- Batch row of row `r` of block `t`. -/
def rowOf (t : Fin cfg0.N) (r : Fin 2048) : Fin 262144 :=
  ⟨t.val * 2048 + r.val, by have ht : t.val < 128 := lt_of_lt_of_eq t.isLt N_0; have := r.isLt; omega⟩

theorem bX_at (c : Dev nD) (t : Fin cfg0.N) (r : Fin 2048) (k : Fin 128) :
    bX m c t (ix2 r k) = aX m c (ix2 (rowOf t r) k) := by
  obtain ⟨e0, e1, -⟩ := idx_facts t
  show V m c main_arg0 (((cfg0.win 0).blk t).view.emb (ix2 r k)) = V m c main_arg0 (ix2 (rowOf t r) k)
  refine congrArg _ (funext fun a => Fin.ext ?_)
  match a with
  | ⟨0, _⟩ => show win0_0.index t (0 : Fin 2) * 2048 + 1 * r.val = t.val * 2048 + r.val; omega
  | ⟨1, _⟩ => show win0_0.index t (1 : Fin 2) * 128 + 1 * k.val = k.val; omega

theorem bRe_at (c : Dev nD) (t : Fin cfg0.N) (r : Fin 2048) (h : Fin 256) :
    bRe m c t (ix2 r h) = aRe m c (ix2 (rowOf t r) h) := by
  obtain ⟨-, -, e0, e1, -⟩ := idx_facts t
  show V m c main_arg1 (((cfg0.win 1).blk t).view.emb (ix2 r h)) = V m c main_arg1 (ix2 (rowOf t r) h)
  refine congrArg _ (funext fun a => Fin.ext ?_)
  match a with
  | ⟨0, _⟩ => show win0_1.index t (0 : Fin 2) * 2048 + 1 * r.val = t.val * 2048 + r.val; omega
  | ⟨1, _⟩ => show win0_1.index t (1 : Fin 2) * 256 + 1 * h.val = h.val; omega

theorem bIm_at (c : Dev nD) (t : Fin cfg0.N) (r : Fin 2048) (h : Fin 256) :
    bIm m c t (ix2 r h) = aIm m c (ix2 (rowOf t r) h) := by
  obtain ⟨-, -, -, -, e0, e1, -⟩ := idx_facts t
  show V m c main_arg2 (((cfg0.win 2).blk t).view.emb (ix2 r h)) = V m c main_arg2 (ix2 (rowOf t r) h)
  refine congrArg _ (funext fun a => Fin.ext ?_)
  match a with
  | ⟨0, _⟩ => show win0_2.index t (0 : Fin 2) * 2048 + 1 * r.val = t.val * 2048 + r.val; omega
  | ⟨1, _⟩ => show win0_2.index t (1 : Fin 2) * 256 + 1 * h.val = h.val; omega

theorem bLr_eq (c : Dev nD) (t : Fin cfg0.N) : bLr m c t = aLr m c := by
  obtain ⟨-, -, -, -, -, -, e0, e1, -⟩ := idx_facts t
  funext z
  show V m c main_v5 (((cfg0.win 3).blk t).view.emb z) = V m c main_v5 z
  refine congrArg _ (funext fun a => Fin.ext ?_)
  match a with
  | ⟨0, _⟩ => show win0_3.index t (0 : Fin 2) * 1 + 1 * (z 0).val = (z 0).val; omega
  | ⟨1, _⟩ => show win0_3.index t (1 : Fin 2) * 256 + 1 * (z 1).val = (z 1).val; omega

theorem bLi_eq (c : Dev nD) (t : Fin cfg0.N) : bLi m c t = aLi m c := by
  obtain ⟨-, -, -, -, -, -, -, -, e0, e1, -⟩ := idx_facts t
  funext z
  show V m c main_v7 (((cfg0.win 4).blk t).view.emb z) = V m c main_v7 z
  refine congrArg _ (funext fun a => Fin.ext ?_)
  match a with
  | ⟨0, _⟩ => show win0_4.index t (0 : Fin 2) * 1 + 1 * (z 0).val = (z 0).val; omega
  | ⟨1, _⟩ => show win0_4.index t (1 : Fin 2) * 256 + 1 * (z 1).val = (z 1).val; omega

theorem bWr_eq (c : Dev nD) (t : Fin cfg0.N) : bWr m c t = aWr m c := by
  obtain ⟨-, -, -, -, -, -, -, -, -, -, e0, e1, -⟩ := idx_facts t
  funext z
  show V m c main_v11 (((cfg0.win 5).blk t).view.emb z) = V m c main_v11 z
  refine congrArg _ (funext fun a => Fin.ext ?_)
  match a with
  | ⟨0, _⟩ => show win0_5.index t (0 : Fin 2) * 128 + 1 * (z 0).val = (z 0).val; omega
  | ⟨1, _⟩ => show win0_5.index t (1 : Fin 2) * 256 + 1 * (z 1).val = (z 1).val; omega

theorem bWi_eq (c : Dev nD) (t : Fin cfg0.N) : bWi m c t = aWi m c := by
  obtain ⟨-, -, -, -, -, -, -, -, -, -, -, -, e0, e1, -⟩ := idx_facts t
  funext z
  show V m c main_v14 (((cfg0.win 6).blk t).view.emb z) = V m c main_v14 z
  refine congrArg _ (funext fun a => Fin.ext ?_)
  match a with
  | ⟨0, _⟩ => show win0_6.index t (0 : Fin 2) * 128 + 1 * (z 0).val = (z 0).val; omega
  | ⟨1, _⟩ => show win0_6.index t (1 : Fin 2) * 256 + 1 * (z 1).val = (z 1).val; omega

/-! ## What a point writes back, and the whole array -/

/-- WHAT POINT `t` WRITES BACK is block `t` of the step of the whole batch. -/
theorem flushed_eq (c : Dev nD) (t : Fin cfg0.N) :
    (dats m 0 c).flushed 7 t = ((cfg0.win 7).blk t).view.read (Elt Ideal) (stepped m c) := by
  rw [Cert.KernelIdeal.Value.flushed7]
  obtain ⟨-, -, -, -, -, -, -, -, -, -, -, -, -, -, e0, e1, e2⟩ := idx_facts t
  funext y
  obtain ⟨p, r, h, rfl⟩ : ∃ (p : Fin 2) (r : Fin 2048) (h : Fin 256), y = ix3 p r h :=
    ⟨y 0, y 1, y 2, eq_ix3 (n0 := 2) (n1 := 2048) (n2 := 256) y⟩
  show out0_7 (bX m c t) (bRe m c t) (bIm m c t) (bLr m c t) (bLi m c t) (bWr m c t) (bWi m c t) (ix3 p r h)
    = stepped m c (((cfg0.win 7).blk t).view.emb (ix3 p r h))
  refine (Cert.KernelIdeal.Block.out_at (bX m c t) (bRe m c t) (bIm m c t) (bLr m c t) (bLi m c t) (bWr m c t) (bWi m c t) p r h).trans ?_
  rw [bLr_eq, bLi_eq, bWr_eq, bWi_eq]
  refine (combine_rows (aX m c) (aRe m c) (aIm m c) (bX m c t) (bRe m c t) (bIm m c t) (aLr m c) (aLi m c) (aWr m c) (aWi m c)
    (rowOf t) (bX_at m c t) (bRe_at m c t) (bIm_at m c t) p r h).trans ?_
  unfold stepped
  refine combine_congr _ _ _ _ _ _ _ ?_ ?_ ?_
  · show p.val = win0_7.index t (0 : Fin 3) * 2 + 1 * p.val; omega
  · show t.val * 2048 + r.val = win0_7.index t (1 : Fin 3) * 2048 + 1 * r.val; omega
  · show h.val = win0_7.index t (2 : Fin 3) * 256 + 1 * h.val; omega

/-- An index of the result is in point `t`'s block iff each coordinate is in the block's range on its axis. -/
theorem mem_blk (t : Fin cfg0.N) (i : S2x262144x256.Idx) :
    i ∈ ((cfg0.win 7).blk t).view.set ↔ ∀ a : Fin 3, win0_7.index t a * S2x2048x256.size a ≤ (i a).val ∧ (i a).val < win0_7.index t a * S2x2048x256.size a + S2x2048x256.size a := by
  show i ∈ ((View.whole main_v15).slice (win0_7.rect t)).set ↔ _
  rw [View.set_slice_whole, Rect.mem_set_unit]
  exact Iff.rfl

/-- The 128 blocks of rows tile the result: row `b` is in block `b / 2048`. -/
theorem cover (i : S2x262144x256.Idx) :
    ∃ t : Fin cfg0.N, (cfg0.win 7).flush t = true ∧ i ∈ ((cfg0.win 7).blk t).view.set := by
  have hi0 : (i 0).val < 2 := (i 0).isLt
  have hi1 : (i 1).val < 262144 := (i 1).isLt
  have hi2 : (i 2).val < 256 := (i 2).isLt
  obtain ⟨t, ht⟩ := idx_onto ⟨(i 1).val / 2048, by omega⟩
  have ht' : t.val = (i 1).val / 2048 := ht
  obtain ⟨-, -, -, -, -, -, -, -, -, -, -, -, -, -, e0, e1, e2⟩ := idx_facts t
  refine ⟨t, flush0_7 t, ?_⟩
  rw [mem_blk]
  intro a
  match a with
  | ⟨0, _⟩ => show win0_7.index t (0 : Fin 3) * 2 ≤ (i 0).val ∧ (i 0).val < win0_7.index t (0 : Fin 3) * 2 + 2; omega
  | ⟨1, _⟩ => show win0_7.index t (1 : Fin 3) * 2048 ≤ (i 1).val ∧ (i 1).val < win0_7.index t (1 : Fin 3) * 2048 + 2048; omega
  | ⟨2, _⟩ => show win0_7.index t (2 : Fin 3) * 256 ≤ (i 2).val ∧ (i 2).val < win0_7.index t (2 : Fin 3) * 256 + 256; omega

/-- THE RESULT ARRAY after the run is the step of the whole batch, from the arrays as the region finds them. -/
theorem final (c : Dev nD) : (dats m 0 c).arrAt 7 cfg0.N = stepped m c :=
  (dats m 0 c).arrAt_eq_of_cover 7 (stepped m c) (fun t _ => flushed_eq m c t) cover

/-! ## The prepared arrays are the eigenvalue's parts and the drive matrices of the arguments -/

abbrev pX (c : Dev nD) : FVec Ideal S262144x128 .f32 := m ((c : Thread nD τ).loc main_arg0)
abbrev pRe (c : Dev nD) : FVec Ideal S262144x256 .f32 := m ((c : Thread nD τ).loc main_arg1)
abbrev pIm (c : Dev nD) : FVec Ideal S262144x256 .f32 := m ((c : Thread nD τ).loc main_arg2)
abbrev pNu (c : Dev nD) : FVec Ideal S1x256 .f32 := m ((c : Thread nD τ).loc main_arg3)
abbrev pTh (c : Dev nD) : FVec Ideal S1x256 .f32 := m ((c : Thread nD τ).loc main_arg4)
abbrev pBr (c : Dev nD) : FVec Ideal S256x128 .f32 := m ((c : Thread nD τ).loc main_arg5)
abbrev pBi (c : Dev nD) : FVec Ideal S256x128 .f32 := m ((c : Thread nD τ).loc main_arg6)
abbrev pGa (c : Dev nD) : FVec Ideal S1x256 .f32 := m ((c : Thread nD τ).loc main_arg7)

/-- `Re λ`: the host's `exp(−exp ν) · cos(exp θ)`, entry by entry. -/
theorem aLr_eq (c : Dev nD) : aLr m c = lamRe (pNu m c) (pTh m c) := by
  have e : aLr m c = mulf (Host.exp (Host.negf (Host.exp (pNu m c)))) (Host.cos (Host.exp (pTh m c))) := by
    show V m c main_v5 = _
    dsimp only [Gen.V, Gen.hostOps0]
    after_results
  rw [e]
  funext i
  obtain ⟨a, h, rfl⟩ : ∃ (a : Fin 1) (h : Fin 256), i = ix2 a h := ⟨i 0, i 1, eq_ix2 i⟩
  obtain rfl : a = 0 := Subsingleton.elim _ _
  rfl

/-- `Im λ`: the host's `exp(−exp ν) · sin(exp θ)`. -/
theorem aLi_eq (c : Dev nD) : aLi m c = lamIm (pNu m c) (pTh m c) := by
  have e : aLi m c = mulf (Host.exp (Host.negf (Host.exp (pNu m c)))) (Host.sin (Host.exp (pTh m c))) := by
    show V m c main_v7 = _
    dsimp only [Gen.V, Gen.hostOps0]
    after_results
  rw [e]
  funext i
  obtain ⟨a, h, rfl⟩ : ∃ (a : Fin 1) (h : Fin 256), i = ix2 a h := ⟨i 0, i 1, eq_ix2 i⟩
  obtain rfl : a = 0 := Subsingleton.elim _ _
  rfl

/-- A parameter matrix transposed, times the row `exp γ` broadcast down the 128 rows, at `(k, h)`. -/
theorem scaled_at (B : FVec Ideal S256x128 .f32) (g : FVec Ideal S1x256 .f32) (k : Fin 128) (h : Fin 256) :
    mulf (transpose S128x256 [1, 0] B transposes_S256x128_S128x256_1_0)
        (broadcastInDim S128x256 ![0, 1] bcast_S1x256_S128x256_0_1 (Host.exp g)) (ix2 k h)
      = drive g B (ix2 k h) := by
  show transpose S128x256 [1, 0] B transposes_S256x128_S128x256_1_0 (ix2 k h)
      * broadcastInDim S128x256 ![0, 1] bcast_S1x256_S128x256_0_1 (Host.exp g) (ix2 k h) = B (ix2 h k) * Ideal.exp (g (ix2 0 h))
  rw [transpose_apply [1, 0] B transposes_S256x128_S128x256_1_0 (ix2 k h) (ix2 h k) (fun b => match b with
      | ⟨0, _⟩ => rfl
      | ⟨1, _⟩ => rfl),
    broadcastInDim_apply _ bcast_S1x256_S128x256_0_1 (Host.exp g) (ix2 k h) (ix2 0 h) (fun a => match a with
      | ⟨0, _⟩ => by show 0 = if (1 : Nat) = 1 then 0 else k.val; rw [if_pos rfl]
      | ⟨1, _⟩ => by show h.val = if (256 : Nat) = 1 then 0 else h.val; rw [if_neg (by decide)])]
  rfl

/-- The real part's drive matrix. -/
theorem aWr_eq (c : Dev nD) : aWr m c = drive (pGa m c) (pBr m c) := by
  have e : aWr m c = mulf (transpose S128x256 [1, 0] (pBr m c) transposes_S256x128_S128x256_1_0)
      (broadcastInDim S128x256 ![0, 1] bcast_S1x256_S128x256_0_1 (Host.exp (pGa m c))) := by
    show V m c main_v11 = _
    dsimp only [Gen.V, Gen.hostOps0]
    after_results
  rw [e]
  funext i
  obtain ⟨k, h, rfl⟩ : ∃ (k : Fin 128) (h : Fin 256), i = ix2 k h := ⟨i 0, i 1, eq_ix2 i⟩
  exact scaled_at (pBr m c) (pGa m c) k h

/-- The imaginary part's drive matrix. -/
theorem aWi_eq (c : Dev nD) : aWi m c = drive (pGa m c) (pBi m c) := by
  have e : aWi m c = mulf (transpose S128x256 [1, 0] (pBi m c) transposes_S256x128_S128x256_1_0)
      (broadcastInDim S128x256 ![0, 1] bcast_S1x256_S128x256_0_1 (Host.exp (pGa m c))) := by
    show V m c main_v14 = _
    dsimp only [Gen.V, Gen.hostOps0]
    after_results
  rw [e]
  funext i
  obtain ⟨k, h, rfl⟩ : ∃ (k : Fin 128) (h : Fin 256), i = ix2 k h := ⟨i 0, i 1, eq_ix2 i⟩
  exact scaled_at (pBi m c) (pGa m c) k h

/-- So the step from the arrays as the region finds them is the step of the arguments. -/
theorem stepped_eq (c : Dev nD) :
    stepped m c = next (pX m c) (pRe m c) (pIm m c) (pNu m c) (pTh m c) (pBr m c) (pBi m c) (pGa m c) := by
  funext j
  unfold stepped next
  rw [show aX m c = pX m c from V_main_arg0 m c, show aRe m c = pRe m c from V_main_arg1 m c,
    show aIm m c = pIm m c from V_main_arg2 m c, aLr_eq, aLi_eq, aWr_eq, aWi_eq]

/-! ## The run -/

/-- Every weakly fair execution of the kernel program ends with the result array at the step of the arguments
    and the arguments unchanged. -/
theorem run : θ_run defs (onTc (τ := τ) (main (F := Ideal))) ⟨m, fun _ => 0, ρ⟩ fun r => ∀ c : Dev nD,
      r.2.mem ((c : Thread nD τ).loc main_v15)
        = next (pX m c) (pRe m c) (pIm m c) (pNu m c) (pTh m c) (pBr m c) (pBi m c) (pGa m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final m c).trans (stepped_eq m c)), (h c).2⟩)
    (Cert.KernelIdeal.Value.run_blocks m ρ)

end Cert.KernelIdeal.Stepped

end
-- ==== Proof.ReferenceStep.lean ====
/-
  The reference computes the recurrence step.

  Its result stacks two planes along the leading axis; each plane, at batch row `b` and hidden unit `h`, is the
  eigenvalue's two parts against the state's two parts, plus a contraction over the 128 input features of the
  input row with a 128 × 256 matrix that the program forms by scaling row `h` of a parameter matrix by
  `exp γ_h` (scale on the LEFT of the entry) and transposing. Read index by index this is `LruStep.next` with the
  scale written on the left; the two agree because the product of extended reals commutes.
-/
import proofs.«101605_j15032385536244_1_alg».proof.Proof.ReferenceRead
import proofs.«101605_j15032385536244_1_alg».proof.Proof.StepSpec

noncomputable section

namespace Cert.ReferenceIdeal.Step

open Cert.ReferenceIdeal Cert.ReferenceIdeal.Gen Cert.ReferenceIdeal.ReadP Cert.LruStep Idealize.ShloMosaic Idealize.ShloMosaic.ValueIdx

variable (x0 : (⟨S262144x128, .f32⟩ : BufTy).Contents (Elt Ideal)) (x1 x2 : (⟨S262144x256, .f32⟩ : BufTy).Contents (Elt Ideal))
  (x3 x4 : (⟨S1x256, .f32⟩ : BufTy).Contents (Elt Ideal)) (x5 x6 : (⟨S256x128, .f32⟩ : BufTy).Contents (Elt Ideal))
  (x7 : (⟨S1x256, .f32⟩ : BufTy).Contents (Elt Ideal))

/-- The eigenvalue's real part, broadcast over the batch, read at `(b, h)`: the row's entry `h`. -/
theorem lamRe_at (b : Fin 262144) (h : Fin 256) :
    val_main_v18 (F := Ideal) x3 x4 (ix2 b h) = lamRe x3 x4 (ix2 0 h) := by
  rw [val_main_v18_apply]
  have e : idx_main_v18 (ix2 b h) = ix2 0 h := funext fun a => Fin.ext (by match a with | ⟨0, _⟩ => rfl | ⟨1, _⟩ => rfl)
  rw [e]; rfl

/-- The eigenvalue's imaginary part likewise. -/
theorem lamIm_at (b : Fin 262144) (h : Fin 256) :
    val_main_v20 (F := Ideal) x3 x4 (ix2 b h) = lamIm x3 x4 (ix2 0 h) := by
  rw [val_main_v20_apply]
  have e : idx_main_v20 (ix2 b h) = ix2 0 h := funext fun a => Fin.ext (by match a with | ⟨0, _⟩ => rfl | ⟨1, _⟩ => rfl)
  rw [e]; rfl

/-- The second pair of broadcasts are the same two rows. -/
theorem lamRe_at' (b : Fin 262144) (h : Fin 256) :
    val_main_v24 (F := Ideal) x3 x4 (ix2 b h) = lamRe x3 x4 (ix2 0 h) := lamRe_at x3 x4 b h
theorem lamIm_at' (b : Fin 262144) (h : Fin 256) :
    val_main_v26 (F := Ideal) x3 x4 (ix2 b h) = lamIm x3 x4 (ix2 0 h) := lamIm_at x3 x4 b h

/-- The matrix the real-part contraction runs against, at `(k, h)`: `exp γ_h · B_{h,k}`. -/
theorem driveRe_at (k : Fin 128) (h : Fin 256) :
    val_main_v12 (F := Ideal) x5 x7 (ix2 k h) = driveL x7 x5 (ix2 k h) := by
  rw [val_main_v12_apply, val_main_v11_apply, val_main_v10_apply, val_main_v9_apply, val_main_v8_apply]
  have e1 : idx_main_v9 (idx_main_v10 (idx_main_v12 (ix2 k h))) = ix2 0 h :=
    funext fun a => Fin.ext (by match a with | ⟨0, _⟩ => rfl | ⟨1, _⟩ => rfl)
  have e2 : idx_main_v12 (ix2 k h) = ix2 h k :=
    funext fun a => Fin.ext (by match a with | ⟨0, _⟩ => rfl | ⟨1, _⟩ => rfl)
  rw [e1, e2]; rfl

/-- The matrix of the imaginary-part contraction likewise. -/
theorem driveIm_at (k : Fin 128) (h : Fin 256) :
    val_main_v16 (F := Ideal) x6 x7 (ix2 k h) = driveL x7 x6 (ix2 k h) := by
  rw [val_main_v16_apply, val_main_v15_apply, val_main_v14_apply, val_main_v9_apply, val_main_v8_apply]
  have e1 : idx_main_v9 (idx_main_v14 (idx_main_v16 (ix2 k h))) = ix2 0 h :=
    funext fun a => Fin.ext (by match a with | ⟨0, _⟩ => rfl | ⟨1, _⟩ => rfl)
  have e2 : idx_main_v16 (ix2 k h) = ix2 h k :=
    funext fun a => Fin.ext (by match a with | ⟨0, _⟩ => rfl | ⟨1, _⟩ => rfl)
  rw [e1, e2]; rfl

/-- The real plane at `(b, h)`. -/
theorem planeRe_at (b : Fin 262144) (h : Fin 256) :
    val_main_v23 (F := Ideal) x0 x1 x2 x3 x4 x5 x7 (ix2 b h)
      = combine x0 x1 x2 (lamRe x3 x4) (lamIm x3 x4) (drive x7 x5) (drive x7 x6) 0 b h := by
  rw [val_main_v23_apply, val_main_v22_apply, val_main_v19_apply, val_main_v21_apply, val_main_v13_apply,
    lamRe_at, lamIm_at]
  have el : ∀ k : Fin 128, lidx_main_v13 (ix2 b h) k = ix2 b k := fun k =>
    funext fun a => Fin.ext (by match a with | ⟨0, _⟩ => rfl | ⟨1, _⟩ => rfl)
  have er : ∀ k : Fin 128, ridx_main_v13 (ix2 b h) k = ix2 k h := fun k =>
    funext fun a => Fin.ext (by match a with | ⟨0, _⟩ => rfl | ⟨1, _⟩ => rfl)
  simp only [el, er, driveRe_at, driveL_eq]
  rfl

/-- The imaginary plane at `(b, h)`. -/
theorem planeIm_at (b : Fin 262144) (h : Fin 256) :
    val_main_v29 (F := Ideal) x0 x1 x2 x3 x4 x6 x7 (ix2 b h)
      = combine x0 x1 x2 (lamRe x3 x4) (lamIm x3 x4) (drive x7 x5) (drive x7 x6) 1 b h := by
  rw [val_main_v29_apply, val_main_v28_apply, val_main_v25_apply, val_main_v27_apply, val_main_v17_apply,
    lamRe_at', lamIm_at']
  have el : ∀ k : Fin 128, lidx_main_v17 (ix2 b h) k = ix2 b k := fun k =>
    funext fun a => Fin.ext (by match a with | ⟨0, _⟩ => rfl | ⟨1, _⟩ => rfl)
  have er : ∀ k : Fin 128, ridx_main_v17 (ix2 b h) k = ix2 k h := fun k =>
    funext fun a => Fin.ext (by match a with | ⟨0, _⟩ => rfl | ⟨1, _⟩ => rfl)
  simp only [el, er, driveIm_at, driveL_eq]
  rfl

/-- THE REFERENCE'S RESULT is the step: the stacked array at `(p, b, h)` is plane `p` at `(b, h)`. -/
theorem result_eq : val_main_v32 (F := Ideal) x0 x1 x2 x3 x4 x5 x6 x7 = next x0 x1 x2 x3 x4 x5 x6 x7 := by
  funext j
  obtain ⟨p, b, h, rfl⟩ : ∃ (p : Fin 2) (b : Fin 262144) (h : Fin 256), j = ix3 p b h := ⟨j 0, j 1, j 2, eq_ix3 j⟩
  unfold val_main_v32
  show _ = combine x0 x1 x2 (lamRe x3 x4) (lamIm x3 x4) (drive x7 x5) (drive x7 x6) p b h
  have hp : p.val = 0 ∨ p.val = 1 := by have := p.isLt; omega
  rcases hp with hp | hp
  · obtain rfl : p = 0 := Fin.ext hp
    refine (concatenate_pair_apply_left (0 : Fin S2x262144x256.rank) _ _ concatenates_S1x262144x256_S1x262144x256_S2x262144x256_d0
      (ix3 0 b h) rfl (ix3 0 b h) (fun a => by match a with | ⟨0, _⟩ => rfl | ⟨1, _⟩ => rfl | ⟨2, _⟩ => rfl)).trans ?_
    rw [val_main_v30_apply]
    have e : idx_main_v30 (ix3 0 b h) = ix2 b h := funext fun a => Fin.ext (by match a with | ⟨0, _⟩ => rfl | ⟨1, _⟩ => rfl)
    rw [e]
    exact planeRe_at x0 x1 x2 x3 x4 x5 x6 x7 b h
  · obtain rfl : p = 1 := Fin.ext hp
    refine (concatenate_pair_apply_right (0 : Fin S2x262144x256.rank) _ _ concatenates_S1x262144x256_S1x262144x256_S2x262144x256_d0
      (ix3 1 b h) rfl rfl (ix3 0 b h) (fun a ha => by
        match a with
        | ⟨0, _⟩ => exact absurd rfl ha
        | ⟨1, _⟩ => rfl
        | ⟨2, _⟩ => rfl) rfl).trans ?_
    rw [val_main_v31_apply]
    have e : idx_main_v31 (ix3 0 b h) = ix2 b h := funext fun a => Fin.ext (by match a with | ⟨0, _⟩ => rfl | ⟨1, _⟩ => rfl)
    rw [e]
    exact planeIm_at x0 x1 x2 x3 x4 x5 x6 x7 b h

end Cert.ReferenceIdeal.Step

end
-- ==== Proof.lean ====
/-
  A single step of a diagonal complex linear recurrence: the Pallas kernel against its jnp reference, over the
  extended reals.

  Both programs take a batch of 262144 input rows (128 features), the state's real and imaginary planes
  (262144 × 256), and the parameters `ν, θ, γ` (rows of 256) and `B_re, B_im` (256 × 128), and return the new
  state's two planes stacked: with `λ_h = exp(−exp ν_h) · (cos φ_h + i sin φ_h)`, `φ_h = exp θ_h`,

      re'_{b,h} = (Re λ_h · re_{b,h} − Im λ_h · im_{b,h}) + Σ_k x_{b,k} · B_re[h,k] · exp γ_h
      im'_{b,h} = (Re λ_h · im_{b,h} + Im λ_h · re_{b,h}) + Σ_k x_{b,k} · B_im[h,k] · exp γ_h

  (`LruStep.next`, Proof/StepSpec.lean). The two programs form the same sums and products in the same
  association; they differ in where the work happens (the kernel walks the batch in 128 blocks of 2048 rows and
  multiplies through the matrix unit after a change of float format, which is the identity on extended reals; the
  reference contracts the whole batch at once), and in that the kernel scales a parameter-matrix entry by
  `exp γ_h` on the right where the reference scales on the left — equal because the product of extended reals
  commutes. No input needs to be finite for that, so the precondition is never opened.

  The kernel side: Proof/BlockStep.lean (what the body leaves in a block is the step of the block's rows) and
  Proof/ArrayStep.lean (the blocks tile the result; the host-prepared arrays are `Re λ`, `Im λ` and the two
  drive matrices). The reference side: Proof/ReferenceStep.lean over the reference's run read operation by
  operation. The three frames are the programs' runs with the result dropped; the idealization rewrote no
  operation, so `preserves` has nothing to state.
-/
import proofs.«101605_j15032385536244_1_alg».proof.Defs
import proofs.«101605_j15032385536244_1_alg».proof.Proof.Gen.Kernel
import proofs.«101605_j15032385536244_1_alg».proof.Proof.Gen.Kernel.Skeleton
import proofs.«101605_j15032385536244_1_alg».proof.Proof.Gen.Kernel.Launch
import proofs.«101605_j15032385536244_1_alg».proof.Proof.Gen.Kernel.Points
import proofs.«101605_j15032385536244_1_alg».proof.Proof.Gen.Kernel.Frame
import proofs.«101605_j15032385536244_1_alg».proof.Proof.Gen.KernelIdeal
import proofs.«101605_j15032385536244_1_alg».proof.Proof.Gen.KernelIdeal.Skeleton
import proofs.«101605_j15032385536244_1_alg».proof.Proof.Gen.KernelIdeal.Launch
import proofs.«101605_j15032385536244_1_alg».proof.Proof.Gen.KernelIdeal.Points
import proofs.«101605_j15032385536244_1_alg».proof.Proof.Gen.KernelIdeal.Frame
import proofs.«101605_j15032385536244_1_alg».proof.Proof.Gen.ReferenceIdeal
import proofs.«101605_j15032385536244_1_alg».proof.Proof.Gen.Pre_finite_inputs
import proofs.«101605_j15032385536244_1_alg».proof.Proof.Gen.KernelIdeal.Value
import proofs.«101605_j15032385536244_1_alg».proof.Proof.ArrayStep
import proofs.«101605_j15032385536244_1_alg».proof.Proof.ReferenceStep
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- Run from memories that agree on the arguments, both programs end with the result at the step of the
    arguments: the kernel's array by `Stepped.run`, the reference's by its run and `Step.result_eq`. -/
theorem algebraic : Cert.algebraic_KernelIdeal_ReferenceIdeal := by
  intro m ρ m' ρ' _ hagree
  refine ⟨_, Cert.KernelIdeal.Stepped.run m ρ, ?_⟩
  refine (θ_run Cert.ReferenceIdeal.defs _ _).mono (fun _ h c => ⟨?_, (h c).2⟩)
    (Cert.ReferenceIdeal.RunP.run (F := Ideal) m' ρ')
  refine ((h c).1.trans (Cert.ReferenceIdeal.ReadP.val_main_v32_eq _ _ _ _ _ _ _ _)).trans ?_
  rw [Cert.ReferenceIdeal.Step.result_eq]
  obtain ⟨h0, h1, h2, h3, h4, h5, h6, h7⟩ := hagree c
  rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
